-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_delta" .f32 0x40200000#32 ((33554432 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S1048576x51 : Shape := ⟨2, ![1048576, 51]⟩
abbrev S51 : Shape := ⟨1, ![51]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel
  bcast_S_S1048576x51 : S_.BroadcastsInDim S1048576x51 (![] : Fin 0 → Fin S1048576x51.rank)
  reducesTo_S1048576x51_S_d0_1 : S1048576x51.ReducesTo [0, 1] S_
  bcast_S_S51 : S_.BroadcastsInDim S51 (![] : Fin 0 → Fin S51.rank)
  reducesTo_S51_S_d0 : S51.ReducesTo [0] S_

variable [Facts]

def fn {F : FTy → Type} [FloatOps F] (main_arg0 : FVec F S1048576 .f32) (main_arg1 : FVec F S1048576x51 .f32) (main_arg2 : FVec F S51 .f32) (main_arg3 : IVec S1048576 32) : IVec S_ 1 :=
  let main_v0 : FVec F S1048576 .f32 := Host.absf main_arg0
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S1048576x51 .f32 := Host.absf main_arg1
  let main_cst_0 : FVec F S_ .f32 := constant S_ .f32 0x7F800000#32
  let main_v5 : FVec F S1048576x51 .f32 := broadcastInDim S1048576x51 ![] bcast_S_S1048576x51 main_cst_0
  let main_v6 : IVec S1048576x51 1 := cmpf .olt main_v4 main_v5
  let main_c_1 : IVec S_ 1 := constantI S_ 1 1#1
  let main_v7 : IVec S_ 1 := (fun x v => Host.reduce IntOp.andi x v reducesTo_S1048576x51_S_d0_1 h_S_) main_v6 main_c_1
  let main_v8 : IVec S_ 1 := andi main_v3 main_v7
  let main_v9 : FVec F S51 .f32 := Host.absf main_arg2
  let main_cst_2 : FVec F S_ .f32 := constant S_ .f32 0x7F800000#32
  let main_v10 : FVec F S51 .f32 := broadcastInDim S51 ![] bcast_S_S51 main_cst_2
  let main_v11 : IVec S51 1 := cmpf .olt main_v9 main_v10
  let main_c_3 : IVec S_ 1 := constantI S_ 1 1#1
  let main_v12 : IVec S_ 1 := (fun x v => Host.reduce IntOp.andi x v reducesTo_S51_S_d0 h_S_) main_v11 main_c_3
  let main_v13 : IVec S_ 1 := andi main_v8 main_v12
  main_v13
-- ==== Kernel.lean ====
abbrev S1048576 : Shape := ⟨1, ![1048576]⟩
abbrev S1048576x51 : Shape := ⟨2, ![1048576, 51]⟩
abbrev S51 : Shape := ⟨1, ![51]⟩
abbrev S1048576x1 : Shape := ⟨2, ![1048576, 1]⟩
abbrev S4096x1 : Shape := ⟨2, ![4096, 1]⟩
abbrev S4096x51 : Shape := ⟨2, ![4096, 51]⟩
abbrev S1x51 : Shape := ⟨2, ![1, 51]⟩
abbrev S4096 : Shape := ⟨1, ![4096]⟩

abbrev nBuf : Space → Nat
  | .hbm => 7
  | .vmem => 9
  | .smem => 0
  | _ => 0

abbrev bufTy : (tb : Table) → Fin (tcTables nBuf tb) → BufTy
  | .hbm, ⟨0, _⟩ => ⟨S1048576, .f32⟩
  | .hbm, ⟨1, _⟩ => ⟨S1048576x51, .f32⟩
  | .hbm, ⟨2, _⟩ => ⟨S51, .f32⟩
  | .hbm, ⟨3, _⟩ => ⟨S1048576, .i32⟩
  | .hbm, ⟨4, _⟩ => ⟨S1048576x1, .f32⟩
  | .hbm, ⟨5, _⟩ => ⟨S1048576x1, .i32⟩
  | .hbm, ⟨6, _⟩ => ⟨S1048576x51, .f32⟩
  | .local _ .vmem, ⟨0, _⟩ => ⟨S4096x1, .f32⟩
  | .local _ .vmem, ⟨1, _⟩ => ⟨S4096x1, .f32⟩
  | .local _ .vmem, ⟨2, _⟩ => ⟨S4096x51, .f32⟩
  | .local _ .vmem, ⟨3, _⟩ => ⟨S4096x51, .f32⟩
  | .local _ .vmem, ⟨4, _⟩ => ⟨S51, .f32⟩
  | .local _ .vmem, ⟨5, _⟩ => ⟨S4096x1, .i32⟩
  | .local _ .vmem, ⟨6, _⟩ => ⟨S4096x1, .i32⟩
  | .local _ .vmem, ⟨7, _⟩ => ⟨S4096x51, .f32⟩
  | .local _ .vmem, ⟨8, _⟩ => ⟨S4096x51, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x51 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S51 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x51 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1048576_S1048576x1 : S1048576.ShapeCasts S1048576x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S51_S51_0 : ∀ a, (![0] : Fin 1 → Nat) a + S51.size a ≤ S51.size a
  h_S51 : 0 < S51.numel
  inb_S4096x51_S4096x51_0_0 : ∀ a, (![0, 0] : Fin 2 → Nat) a + S4096x51.size a ≤ S4096x51.size a
  h_S4096x51 : 0 < S4096x51.numel
  shapeCasts_S51_S1x51 : S51.ShapeCasts S1x51
  broadcasts_S1x51_S4096x51 : S1x51.Broadcasts S4096x51
  broadcasts_S4096x1_S4096x51 : S4096x1.Broadcasts S4096x51
  reduces_S4096x51_S4096 : S4096x51.Reduces [1] S4096
  shapeCasts_S4096_S4096x1 : S4096.ShapeCasts S4096x1
  inb_S4096x51_S4096x1_0_0 : ∀ a, (![0, 0] : Fin 2 → Nat) a + S4096x1.size a ≤ S4096x51.size a
  inb_S4096x51_S4096x1_0_1 : ∀ a, (![0, 1] : Fin 2 → Nat) a + S4096x1.size a ≤ S4096x51.size a
  inb_S4096x51_S4096x1_0_2 : ∀ a, (![0, 2] : Fin 2 → Nat) a + S4096x1.size a ≤ S4096x51.size a
  inb_S4096x51_S4096x1_0_3 : ∀ a, (![0, 3] : Fin 2 → Nat) a + S4096x1.size a ≤ S4096x51.size a
  inb_S4096x51_S4096x1_0_4 : ∀ a, (![0, 4] : Fin 2 → Nat) a + S4096x1.size a ≤ S4096x51.size a
  inb_S4096x51_S4096x1_0_5 : ∀ a, (![0, 5] : Fin 2 → Nat) a + S4096x1.size a ≤ S4096x51.size a
  inb_S4096x51_S4096x1_0_6 : ∀ a, (![0, 6] : Fin 2 → Nat) a + S4096x1.size a ≤ S4096x51.size a
  inb_S4096x51_S4096x1_0_7 : ∀ a, (![0, 7] : Fin 2 → Nat) a + S4096x1.size a ≤ S4096x51.size a
  inb_S4096x51_S4096x1_0_8 : ∀ a, (![0, 8] : Fin 2 → Nat) a + S4096x1.size a ≤ S4096x51.size a
  inb_S4096x51_S4096x1_0_9 : ∀ a, (![0, 9] : Fin 2 → Nat) a + S4096x1.size a ≤ S4096x51.size a
  inb_S4096x51_S4096x1_0_10 : ∀ a, (![0, 10] : Fin 2 → Nat) a + S4096x1.size a ≤ S4096x51.size a
  inb_S4096x51_S4096x1_0_11 : ∀ a, (![0, 11] : Fin 2 → Nat) a + S4096x1.size a ≤ S4096x51.size a
  inb_S4096x51_S4096x1_0_12 : ∀ a, (![0, 12] : Fin 2 → Nat) a + S4096x1.size a ≤ S4096x51.size a
  inb_S4096x51_S4096x1_0_13 : ∀ a, (![0, 13] : Fin 2 → Nat) a + S4096x1.size a ≤ S4096x51.size a
  inb_S4096x51_S4096x1_0_14 : ∀ a, (![0, 14] : Fin 2 → Nat) a + S4096x1.size a ≤ S4096x51.size a
  inb_S4096x51_S4096x1_0_15 : ∀ a, (![0, 15] : Fin 2 → Nat) a + S4096x1.size a ≤ S4096x51.size a
  inb_S4096x51_S4096x1_0_16 : ∀ a, (![0, 16] : Fin 2 → Nat) a + S4096x1.size a ≤ S4096x51.size a
  inb_S4096x51_S4096x1_0_17 : ∀ a, (![0, 17] : Fin 2 → Nat) a + S4096x1.size a ≤ S4096x51.size a
  inb_S4096x51_S4096x1_0_18 : ∀ a, (![0, 18] : Fin 2 → Nat) a + S4096x1.size a ≤ S4096x51.size a
  inb_S4096x51_S4096x1_0_19 : ∀ a, (![0, 19] : Fin 2 → Nat) a + S4096x1.size a ≤ S4096x51.size a
  inb_S4096x51_S4096x1_0_20 : ∀ a, (![0, 20] : Fin 2 → Nat) a + S4096x1.size a ≤ S4096x51.size a
  inb_S4096x51_S4096x1_0_21 : ∀ a, (![0, 21] : Fin 2 → Nat) a + S4096x1.size a ≤ S4096x51.size a
  inb_S4096x51_S4096x1_0_22 : ∀ a, (![0, 22] : Fin 2 → Nat) a + S4096x1.size a ≤ S4096x51.size a
  inb_S4096x51_S4096x1_0_23 : ∀ a, (![0, 23] : Fin 2 → Nat) a + S4096x1.size a ≤ S4096x51.size a
  inb_S4096x51_S4096x1_0_24 : ∀ a, (![0, 24] : Fin 2 → Nat) a + S4096x1.size a ≤ S4096x51.size a
  inb_S4096x51_S4096x1_0_25 : ∀ a, (![0, 25] : Fin 2 → Nat) a + S4096x1.size a ≤ S4096x51.size a
  inb_S4096x51_S4096x1_0_26 : ∀ a, (![0, 26] : Fin 2 → Nat) a + S4096x1.size a ≤ S4096x51.size a
  inb_S4096x51_S4096x1_0_27 : ∀ a, (![0, 27] : Fin 2 → Nat) a + S4096x1.size a ≤ S4096x51.size a
  inb_S4096x51_S4096x1_0_28 : ∀ a, (![0, 28] : Fin 2 → Nat) a + S4096x1.size a ≤ S4096x51.size a
  inb_S4096x51_S4096x1_0_29 : ∀ a, (![0, 29] : Fin 2 → Nat) a + S4096x1.size a ≤ S4096x51.size a
  inb_S4096x51_S4096x1_0_30 : ∀ a, (![0, 30] : Fin 2 → Nat) a + S4096x1.size a ≤ S4096x51.size a
  inb_S4096x51_S4096x1_0_31 : ∀ a, (![0, 31] : Fin 2 → Nat) a + S4096x1.size a ≤ S4096x51.size a
  inb_S4096x51_S4096x1_0_32 : ∀ a, (![0, 32] : Fin 2 → Nat) a + S4096x1.size a ≤ S4096x51.size a
  inb_S4096x51_S4096x1_0_33 : ∀ a, (![0, 33] : Fin 2 → Nat) a + S4096x1.size a ≤ S4096x51.size a
  inb_S4096x51_S4096x1_0_34 : ∀ a, (![0, 34] : Fin 2 → Nat) a + S4096x1.size a ≤ S4096x51.size a
  inb_S4096x51_S4096x1_0_35 : ∀ a, (![0, 35] : Fin 2 → Nat) a + S4096x1.size a ≤ S4096x51.size a
  inb_S4096x51_S4096x1_0_36 : ∀ a, (![0, 36] : Fin 2 → Nat) a + S4096x1.size a ≤ S4096x51.size a
  inb_S4096x51_S4096x1_0_37 : ∀ a, (![0, 37] : Fin 2 → Nat) a + S4096x1.size a ≤ S4096x51.size a
  inb_S4096x51_S4096x1_0_38 : ∀ a, (![0, 38] : Fin 2 → Nat) a + S4096x1.size a ≤ S4096x51.size a
  inb_S4096x51_S4096x1_0_39 : ∀ a, (![0, 39] : Fin 2 → Nat) a + S4096x1.size a ≤ S4096x51.size a
  inb_S4096x51_S4096x1_0_40 : ∀ a, (![0, 40] : Fin 2 → Nat) a + S4096x1.size a ≤ S4096x51.size a
  inb_S4096x51_S4096x1_0_41 : ∀ a, (![0, 41] : Fin 2 → Nat) a + S4096x1.size a ≤ S4096x51.size a
  inb_S4096x51_S4096x1_0_42 : ∀ a, (![0, 42] : Fin 2 → Nat) a + S4096x1.size a ≤ S4096x51.size a
  inb_S4096x51_S4096x1_0_43 : ∀ a, (![0, 43] : Fin 2 → Nat) a + S4096x1.size a ≤ S4096x51.size a
  inb_S4096x51_S4096x1_0_44 : ∀ a, (![0, 44] : Fin 2 → Nat) a + S4096x1.size a ≤ S4096x51.size a
  inb_S4096x51_S4096x1_0_45 : ∀ a, (![0, 45] : Fin 2 → Nat) a + S4096x1.size a ≤ S4096x51.size a
  inb_S4096x51_S4096x1_0_46 : ∀ a, (![0, 46] : Fin 2 → Nat) a + S4096x1.size a ≤ S4096x51.size a
  inb_S4096x51_S4096x1_0_47 : ∀ a, (![0, 47] : Fin 2 → Nat) a + S4096x1.size a ≤ S4096x51.size a
  inb_S4096x51_S4096x1_0_48 : ∀ a, (![0, 48] : Fin 2 → Nat) a + S4096x1.size a ≤ S4096x51.size a
  inb_S4096x51_S4096x1_0_49 : ∀ a, (![0, 49] : Fin 2 → Nat) a + S4096x1.size a ≤ S4096x51.size a
  inb_S4096x51_S4096x1_0_50 : ∀ a, (![0, 50] : Fin 2 → Nat) a + S4096x1.size a ≤ S4096x51.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S1048576x1.size a
  hwx0_0 : ∀ i : grid0.Coords, EltTy.bits .f32 = 32 ∨ (Rect.block (s := S1048576x1) S4096x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x51.size a ≤ S1048576x51.size a
  hwx0_1 : ∀ i : grid0.Coords, EltTy.bits .f32 = 32 ∨ (Rect.block (s := S1048576x51) S4096x51.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S51.size a ≤ S51.size a
  hwx0_2 : ∀ i : grid0.Coords, EltTy.bits .f32 = 32 ∨ (Rect.block (s := S51) S51.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S1048576x1.size a
  hwx0_3 : ∀ i : grid0.Coords, EltTy.bits .i32 = 32 ∨ (Rect.block (s := S1048576x1) S4096x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x51.size a ≤ S1048576x51.size a
  hwx0_4 : ∀ i : grid0.Coords, EltTy.bits .f32 = 32 ∨ (Rect.block (s := S1048576x51) S4096x51.size (cc0_transform_4 i) (hinb0_4 i)).WholeWords (EltTy.packing .f32)

variable [Facts₀]

abbrev win0_0 : Pipeline.Window sig grid0 :=
  Pipeline.Window.ofSpec (Memref.whole main_v0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x51.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S51.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096x51.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576 : Shape := ⟨1, ![1048576]⟩
abbrev S1048576x51 : Shape := ⟨2, ![1048576, 51]⟩
abbrev S51 : Shape := ⟨1, ![51]⟩
abbrev S1048576x1 : Shape := ⟨2, ![1048576, 1]⟩
abbrev S1x51 : Shape := ⟨2, ![1, 51]⟩
abbrev S_ : Shape := ⟨0, ![]⟩
abbrev S53477376 : Shape := ⟨1, ![53477376]⟩
abbrev S53477376x1 : Shape := ⟨2, ![53477376, 1]⟩

abbrev nBuf : Space → Nat
  | .hbm => 92
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1048576x51, .f32⟩
  | .hbm, ⟨2, _⟩ => ⟨S51, .f32⟩
  | .hbm, ⟨3, _⟩ => ⟨S1048576, .i32⟩
  | .hbm, ⟨4, _⟩ => ⟨S1048576, .f32⟩
  | .hbm, ⟨5, _⟩ => ⟨S1048576x1, .f32⟩
  | .hbm, ⟨6, _⟩ => ⟨S1x51, .f32⟩
  | .hbm, ⟨7, _⟩ => ⟨S_, .f32⟩
  | .hbm, ⟨8, _⟩ => ⟨S1x51, .f32⟩
  | .hbm, ⟨9, _⟩ => ⟨S1x51, .f32⟩
  | .hbm, ⟨10, _⟩ => ⟨S1048576x1, .f32⟩
  | .hbm, ⟨11, _⟩ => ⟨S1048576x51, .f32⟩
  | .hbm, ⟨12, _⟩ => ⟨S1048576x51, .f32⟩
  | .hbm, ⟨13, _⟩ => ⟨S1048576x51, .f32⟩
  | .hbm, ⟨14, _⟩ => ⟨S1048576x51, .f32⟩
  | .hbm, ⟨15, _⟩ => ⟨S1048576x51, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1048576x51, .f32⟩
  | .hbm, ⟨20, _⟩ => ⟨S1048576x51, .f32⟩
  | .hbm, ⟨21, _⟩ => ⟨S_, .f32⟩
  | .hbm, ⟨22, _⟩ => ⟨S1048576x51, .f32⟩
  | .hbm, ⟨23, _⟩ => ⟨S1048576x51, .f32⟩
  | .hbm, ⟨24, _⟩ => ⟨S_, .f32⟩
  | .hbm, ⟨25, _⟩ => ⟨S1048576x51, .f32⟩
  | .hbm, ⟨26, _⟩ => ⟨S1048576x51, .f32⟩
  | .hbm, ⟨27, _⟩ => ⟨S_, .f32⟩
  | .hbm, ⟨28, _⟩ => ⟨S1048576x51, .f32⟩
  | .hbm, ⟨29, _⟩ => ⟨S1048576x51, .f32⟩
  | .hbm, ⟨30, _⟩ => ⟨S1048576x51, .f32⟩
  | .hbm, ⟨31, _⟩ => ⟨S1048576x51, .i32⟩
  | .hbm, ⟨32, _⟩ => ⟨S1048576x51, .f32⟩
  | .hbm, ⟨33, _⟩ => ⟨S1048576x51, .i32⟩
  | .hbm, ⟨34, _⟩ => ⟨S_, .i32⟩
  | .hbm, ⟨35, _⟩ => ⟨S1048576x51, .i32⟩
  | .hbm, ⟨36, _⟩ => ⟨S1048576x51, .i1⟩
  | .hbm, ⟨37, _⟩ => ⟨S1048576x51, .i1⟩
  | .hbm, ⟨38, _⟩ => ⟨S1048576x51, .i1⟩
  | .hbm, ⟨39, _⟩ => ⟨S_, .i32⟩
  | .hbm, ⟨40, _⟩ => ⟨S1048576x51, .i32⟩
  | .hbm, ⟨41, _⟩ => ⟨S1048576x51, .i32⟩
  | .hbm, ⟨42, _⟩ => ⟨S1048576x51, .i32⟩
  | .hbm, ⟨43, _⟩ => ⟨S_, .i32⟩
  | .hbm, ⟨44, _⟩ => ⟨S1048576x51, .i32⟩
  | .hbm, ⟨45, _⟩ => ⟨S1048576x51, .i1⟩
  | .hbm, ⟨46, _⟩ => ⟨S1048576x51, .i1⟩
  | .hbm, ⟨47, _⟩ => ⟨S1048576x51, .i1⟩
  | .hbm, ⟨48, _⟩ => ⟨S_, .i32⟩
  | .hbm, ⟨49, _⟩ => ⟨S1048576x51, .i32⟩
  | .hbm, ⟨50, _⟩ => ⟨S1048576x51, .i32⟩
  | .hbm, ⟨51, _⟩ => ⟨S1048576x51, .i32⟩
  | .hbm, ⟨52, _⟩ => ⟨S1048576x51, .f32⟩
  | .hbm, ⟨53, _⟩ => ⟨S1048576x51, .f32⟩
  | .hbm, ⟨54, _⟩ => ⟨S1048576x51, .f32⟩
  | .hbm, ⟨55, _⟩ => ⟨S1048576x51, .f32⟩
  | .hbm, ⟨56, _⟩ => ⟨S1048576x51, .f32⟩
  | .hbm, ⟨57, _⟩ => ⟨S1048576x51, .f32⟩
  | .hbm, ⟨58, _⟩ => ⟨S1048576, .i32⟩
  | .hbm, ⟨59, _⟩ => ⟨S_, .i32⟩
  | .hbm, ⟨60, _⟩ => ⟨S1048576, .i32⟩
  | .hbm, ⟨61, _⟩ => ⟨S1048576, .i32⟩
  | .hbm, ⟨62, _⟩ => ⟨S1048576x1, .i32⟩
  | .hbm, ⟨63, _⟩ => ⟨S_, .f32⟩
  | .hbm, ⟨64, _⟩ => ⟨S53477376, .f32⟩
  | .hbm, ⟨65, _⟩ => ⟨S1048576x51, .i32⟩
  | .hbm, ⟨66, _⟩ => ⟨S1048576x51, .i32⟩
  | .hbm, ⟨67, _⟩ => ⟨S53477376, .i32⟩
  | .hbm, ⟨68, _⟩ => ⟨S53477376, .f32⟩
  | .hbm, ⟨69, _⟩ => ⟨S_, .i32⟩
  | .hbm, ⟨70, _⟩ => ⟨S53477376, .i32⟩
  | .hbm, ⟨71, _⟩ => ⟨S53477376, .i1⟩
  | .hbm, ⟨72, _⟩ => ⟨S_, .i32⟩
  | .hbm, ⟨73, _⟩ => ⟨S53477376, .i32⟩
  | .hbm, ⟨74, _⟩ => ⟨S53477376, .i32⟩
  | .hbm, ⟨75, _⟩ => ⟨S53477376, .i32⟩
  | .hbm, ⟨76, _⟩ => ⟨S53477376x1, .i32⟩
  | .hbm, ⟨77, _⟩ => ⟨S53477376, .f32⟩
  | .hbm, ⟨78, _⟩ => ⟨S1048576x51, .i32⟩
  | .hbm, ⟨79, _⟩ => ⟨S1048576x51, .i32⟩
  | .hbm, ⟨80, _⟩ => ⟨S53477376, .i32⟩
  | .hbm, ⟨81, _⟩ => ⟨S53477376, .f32⟩
  | .hbm, ⟨82, _⟩ => ⟨S_, .i32⟩
  | .hbm, ⟨83, _⟩ => ⟨S53477376, .i32⟩
  | .hbm, ⟨84, _⟩ => ⟨S53477376, .i1⟩
  | .hbm, ⟨85, _⟩ => ⟨S_, .i32⟩
  | .hbm, ⟨86, _⟩ => ⟨S53477376, .i32⟩
  | .hbm, ⟨87, _⟩ => ⟨S53477376, .i32⟩
  | .hbm, ⟨88, _⟩ => ⟨S53477376, .i32⟩
  | .hbm, ⟨89, _⟩ => ⟨S53477376x1, .i32⟩
  | .hbm, ⟨90, _⟩ => ⟨S53477376, .f32⟩
  | .hbm, ⟨91, _⟩ => ⟨S1048576x51, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S51_S1x51_1 : S51.BroadcastsInDim S1x51 (![1] : Fin 1 → Fin S1x51.rank)
  bcast_S_S1x51 : S_.BroadcastsInDim S1x51 (![] : Fin 0 → Fin S1x51.rank)
  bcast_S1x51_S1048576x51_0_1 : S1x51.BroadcastsInDim S1048576x51 (![0, 1] : Fin 2 → Fin S1048576x51.rank)
  bcast_S1048576x1_S1048576x51_0_1 : S1048576x1.BroadcastsInDim S1048576x51 (![0, 1] : Fin 2 → Fin S1048576x51.rank)
  bcast_S_S1048576x51 : S_.BroadcastsInDim S1048576x51 (![] : Fin 0 → Fin S1048576x51.rank)
  bcast_S_S1048576 : S_.BroadcastsInDim S1048576 (![] : Fin 0 → Fin S1048576.rank)
  bcast_S_S53477376 : S_.BroadcastsInDim S53477376 (![] : Fin 0 → Fin S53477376.rank)
  shapeCasts_S1048576x51_S53477376 : S1048576x51.ShapeCasts S53477376
  bcast_S53477376_S53477376x1_0 : S53477376.BroadcastsInDim S53477376x1 (![0] : Fin 1 → Fin S53477376x1.rank)
  shapeCasts_S53477376_S1048576x51 : S53477376.ShapeCasts S1048576x51
  scatter_S53477376_S53477376x1_S53477376_n_0_0_1_wf : ScatterDims.WF S53477376 S53477376x1 S53477376 [] [0] [0] 1

variable [Facts₀]

def scatter_S53477376_S53477376x1_S53477376_n_0_0_1 : ScatterDims S53477376 S53477376x1 S53477376 where
  updateWindowDims := []
  insertedWindowDims := [0]
  scatterDimsToOperandDims := [0]
  indexVectorDim := 1
  wf := scatter_S53477376_S53477376x1_S53477376_n_0_0_1_wf

class Facts : Prop extends Facts₀ where

variable [Facts]
-- ==== Proof.Consts.lean ====
/-
  The float constants of the two programs as the extended reals their single-precision patterns denote:
  the support bounds -10 and 10, the discount 0.99's pattern is never evaluated (it is the same word on both sides),
  zero, and the bin width D = 13421773 / 2^25 (the pattern nearest 0.4) by which the reference divides.
-/
import Idealize.ShloMosaic.PureOps.Ideal

noncomputable section

namespace Cert.Consts

open Idealize.ShloMosaic

/-- The pattern of +0.0 denotes 0. -/
theorem ofBits_zero : Ideal.ofBits .f32 0x00000000#32 = 0 := by
  simp [Ideal.ofBits, Ideal.ieee]

/-- The pattern of -10.0 denotes the real -10. -/
theorem ofBits_neg10 : Ideal.ofBits .f32 0xC1200000#32 = ((-10 : ℝ) : EReal) := by
  simp [Ideal.ofBits, Ideal.ieee, -EReal.coe_mul]; norm_num

/-- The pattern of 10.0 denotes the real 10. -/
theorem ofBits_10 : Ideal.ofBits .f32 0x41200000#32 = ((10 : ℝ) : EReal) := by
  simp [Ideal.ofBits, Ideal.ieee, -EReal.coe_mul]; norm_num

/-- The pattern nearest 0.4 denotes the rational 13421773 / 33554432. -/
theorem ofBits_width : Ideal.ofBits .f32 0x3ECCCCCD#32 = ((13421773 / 33554432 : ℝ) : EReal) := by
  simp [Ideal.ofBits, Ideal.ieee, -EReal.coe_mul]; norm_num

end Cert.Consts

end
-- ==== Proof.Bins.lean ====
/-
  The projection of one atom onto the 51 bins, as scalar functions over the extended reals, and the one fact about
  it the certificate needs: the two bins an atom's mass goes to are among the 51.

  For a reward r, an atom value s and a mask word, the atom's shifted value is r + (γ·s)·mask clipped to [-10, 10];
  its position is (that + 10) / D with D the bin width, so it lies in [0, 20 / D], and 20 / D < 50 because
  20 · 2^25 = 671088640 < 671088650 = 50 · 13421773. Hence its floor is in [0, 49] and its ceiling in [0, 50],
  whatever the inputs are (the clip absorbs infinities), and the two corrections (floor - 1 when the position is a
  positive integer, ceiling + 1 when the lower bin is below 50 and equals the ceiling) keep both in [0, 50].
-/
import Idealize.ShloMosaic.PureOps.Ideal
import Idealize.ShloMosaic.Lib.ValueIdx
import Idealize.ShloMosaic.Lib.StableHlo.Predicate
import proofs.«155263_j38955353375480_1_alg».proof.Proof.Consts

noncomputable section

namespace Cert.Bins

open Idealize.ShloMosaic Idealize.ShloMosaic.StableHlo.Predicate

/-- The reciprocal 2^25 / 13421773 of the bin width. -/
def invD : EReal := ((33554432 / 13421773 : ℝ) : EReal)

/-- The position of an atom among the bins: its shifted, clipped value, moved to start at 0, in units of the bin width. -/
def pos (r s : EReal) (mk : BitVec 32) : EReal :=
  (min (Ideal.ofBits .f32 0x41200000#32) (max (Ideal.ofBits .f32 0xC1200000#32)
    (r + (Ideal.ofBits .f32 0x3F7D70A4#32 * s) * ((mk.toInt : ℝ) : EReal))) - Ideal.ofBits .f32 0xC1200000#32) * invD

/-- The floor and the ceiling of a position, as words. -/
def lo0 (b : EReal) : BitVec 32 := Ideal.fptosi 32 (Ideal.liftRound Int.floor b)
def hi0 (b : EReal) : BitVec 32 := Ideal.fptosi 32 (Ideal.liftRound Int.ceil b)

/-- The lower bin: the floor, one less when the position is a positive integer. -/
def lo (b : EReal) : BitVec 32 :=
  Scalar.select (IntOp.andi (IntOp.cmpi .sgt (hi0 b) 0#32) (IntOp.cmpi .eq (lo0 b) (hi0 b))) (IntOp.subi (lo0 b) 1#32) (lo0 b)

/-- The upper bin: the ceiling, one more when the lower bin is below 50 and equals it. -/
def hi (b : EReal) : BitVec 32 :=
  Scalar.select (IntOp.andi (IntOp.cmpi .slt (lo b) 50#32) (IntOp.cmpi .eq (lo b) (hi0 b))) (IntOp.addi (hi0 b) 1#32) (hi0 b)

/-- The mass d of an atom at position b that goes to the lower bin, and to the upper bin. -/
def wLo (d b : EReal) : EReal := d * ((((hi b).toInt : ℝ) : EReal) - b)
def wHi (d b : EReal) : EReal := d * (b - (((lo b).toInt : ℝ) : EReal))

/-- What an atom of mass d at position b gives bin j. -/
def share (j : BitVec 32) (d b : EReal) : EReal :=
  Scalar.select (IntOp.cmpi .eq (lo b) j) (wLo d b) (Ideal.ofBits .f32 0x00000000#32)
    + Scalar.select (IntOp.cmpi .eq (hi b) j) (wHi d b) (Ideal.ofBits .f32 0x00000000#32)

/-! ## The position is a real in [0, 50) -/

/-- Clipping to [-10, 10] gives a real in that interval, whatever is clipped. -/
theorem clip_real (X : EReal) :
    ∃ y : ℝ, min (((10 : ℝ)) : EReal) (max (((-10 : ℝ)) : EReal) X) = (y : EReal) ∧ -10 ≤ y ∧ y ≤ 10 := by
  have h1 : (((-10 : ℝ)) : EReal) ≤ min (((10 : ℝ)) : EReal) (max (((-10 : ℝ)) : EReal) X) :=
    le_min (by exact_mod_cast (by norm_num : (-10 : ℝ) ≤ 10)) (le_max_left _ _)
  have h2 : min (((10 : ℝ)) : EReal) (max (((-10 : ℝ)) : EReal) X) ≤ (((10 : ℝ)) : EReal) := min_le_left _ _
  have hb : min (((10 : ℝ)) : EReal) (max (((-10 : ℝ)) : EReal) X) ≠ ⊥ := ((EReal.bot_lt_coe _).trans_le h1).ne'
  have ht : min (((10 : ℝ)) : EReal) (max (((-10 : ℝ)) : EReal) X) ≠ ⊤ := (h2.trans_lt (EReal.coe_lt_top _)).ne
  refine ⟨(min (((10 : ℝ)) : EReal) (max (((-10 : ℝ)) : EReal) X)).toReal, (EReal.coe_toReal ht hb).symm, ?_, ?_⟩
  · have := h1; rw [← EReal.coe_toReal ht hb] at this; exact_mod_cast this
  · have := h2; rw [← EReal.coe_toReal ht hb] at this; exact_mod_cast this

/-- So the position is a real x with 0 ≤ x < 50. -/
theorem pos_real (r s : EReal) (mk : BitVec 32) : ∃ x : ℝ, pos r s mk = (x : EReal) ∧ 0 ≤ x ∧ x < 50 := by
  unfold pos invD
  rw [Cert.Consts.ofBits_neg10, Cert.Consts.ofBits_10]
  obtain ⟨y, hy, hlo, hhi⟩ := clip_real (r + (Ideal.ofBits .f32 0x3F7D70A4#32 * s) * ((mk.toInt : ℝ) : EReal))
  rw [hy]
  refine ⟨(y - (-10)) * (33554432 / 13421773), by push_cast; rfl, ?_, ?_⟩
  · apply mul_nonneg <;> [linarith; norm_num]
  · have : (y - (-10)) * (33554432 / 13421773) ≤ 20 * (33554432 / 13421773) := by
      apply mul_le_mul_of_nonneg_right <;> [linarith; norm_num]
    have h50 : (20 : ℝ) * (33554432 / 13421773) < 50 := by norm_num
    linarith

/-! ## The conversion to a word of a small non-negative integer -/

/-- A natural number below 2^31, as a real, converts to its own word. -/
theorem fptosi_natCast (n : ℕ) (hn : n < 2 ^ 31) : Ideal.fptosi 32 (((n : ℤ) : ℝ) : EReal) = BitVec.ofNat 32 n := by
  unfold Ideal.fptosi
  rw [Ideal.toIntClamped_coe, if_pos (by exact_mod_cast Int.natCast_nonneg n), Int.floor_intCast]
  have e : ((2 ^ (32 - 1) : ℕ) : ℤ) = 2147483648 := by norm_num
  rw [e, min_eq_right (by omega), max_eq_right (by omega), BitVec.ofInt_natCast]

/-! ## The two bins are among the 51 -/

theorem andi_one_iff (p q : BitVec 1) : IntOp.andi p q = 1#1 ↔ p = 1#1 ∧ q = 1#1 := by
  revert p q; decide

/-- The corrections keep a floor in [0, 49] and a ceiling in [0, 50] among the bins. -/
theorem adjust_range (a c : BitVec 32) (ha : a.toNat ≤ 49) (hc : c.toNat ≤ 50) :
    (Scalar.select (IntOp.andi (IntOp.cmpi .sgt c 0#32) (IntOp.cmpi .eq a c)) (IntOp.subi a 1#32) a).toNat ≤ 49
    ∧ ∀ l : BitVec 32, l.toNat ≤ 49 →
      (Scalar.select (IntOp.andi (IntOp.cmpi .slt l 50#32) (IntOp.cmpi .eq l c)) (IntOp.addi c 1#32) c).toNat ≤ 50 := by
  constructor
  · unfold Scalar.select
    split
    · next h =>
      replace h : IntOp.andi (IntOp.cmpi .sgt c 0#32) (IntOp.cmpi .eq a c) = 1#1 := h
      rw [andi_one_iff, sgt_iff_toNat (by omega) (by simp), cmpi_eq_iff] at h
      obtain ⟨h0, rfl⟩ := h
      have h0' : 0 < a.toNat := by simpa using h0
      unfold IntOp.subi
      rw [BitVec.toNat_sub]
      simp only [BitVec.toNat_ofNat]
      omega
    · exact ha
  · intro l hl
    unfold Scalar.select
    split
    · next h =>
      replace h : IntOp.andi (IntOp.cmpi .slt l 50#32) (IntOp.cmpi .eq l c) = 1#1 := h
      rw [andi_one_iff, cmpi_eq_iff] at h
      obtain ⟨_, rfl⟩ := h
      unfold IntOp.addi
      rw [BitVec.toNat_add]
      simp only [BitVec.toNat_ofNat]
      omega
    · exact hc

/-- Both bins of a position are at most 50 as unsigned words. -/
theorem bins_range (r s : EReal) (mk : BitVec 32) :
    (lo (pos r s mk)).toNat ≤ 50 ∧ (hi (pos r s mk)).toNat ≤ 50 := by
  obtain ⟨x, hx, h0, h50⟩ := pos_real r s mk
  have hf0 : 0 ≤ ⌊x⌋ := Int.floor_nonneg.mpr h0
  have hf1 : ⌊x⌋ < 50 := Int.floor_lt.mpr (by exact_mod_cast h50)
  have hc0 : 0 ≤ ⌈x⌉ := Int.ceil_nonneg h0
  have hc1 : ⌈x⌉ ≤ 50 := Int.ceil_le.mpr (by exact_mod_cast h50.le)
  have ea : lo0 (pos r s mk) = BitVec.ofNat 32 ⌊x⌋.toNat := by
    unfold lo0; rw [hx, Ideal.liftRound_coe]
    have := fptosi_natCast ⌊x⌋.toNat (by omega)
    rwa [Int.toNat_of_nonneg hf0] at this
  have ec : hi0 (pos r s mk) = BitVec.ofNat 32 ⌈x⌉.toNat := by
    unfold hi0; rw [hx, Ideal.liftRound_coe]
    have := fptosi_natCast ⌈x⌉.toNat (by omega)
    rwa [Int.toNat_of_nonneg hc0] at this
  have ha : (lo0 (pos r s mk)).toNat ≤ 49 := by rw [ea, BitVec.toNat_ofNat]; omega
  have hc : (hi0 (pos r s mk)).toNat ≤ 50 := by rw [ec, BitVec.toNat_ofNat]; omega
  obtain ⟨hl, hu⟩ := adjust_range _ _ ha hc
  exact ⟨by unfold lo; omega, by unfold hi; exact hu _ (by unfold lo; exact hl)⟩

end Cert.Bins

end
-- ==== Proof.KernelBlock.lean ====
/-
  What the kernel's body leaves in its output block, as one function of the block's four loads.

  The body computes, for its 4096 rows and 51 atoms at once, the atoms' positions, their lower and upper bins and the
  two masses, and then stores column j of the output block, for j = 0 … 50 one store each, as the row sums over the
  atoms of "the lower mass where the lower bin is j plus the upper mass where the upper bin is j". The 51 stores write
  51 disjoint columns that tile the block, so the block ends as ONE function of its index (row p, column j): the sum
  over the atoms a of the share atom a of row p gives bin j. At the ideal values every operation under that sum is
  pointwise, so the share is the scalar function `Bins.share` of the row's reward and mask word, the atom's value
  and the atom's mass.
-/
import proofs.«155263_j38955353375480_1_alg».proof.Proof.Gen.KernelIdeal.Frame
import proofs.«155263_j38955353375480_1_alg».proof.Proof.Bins
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.Block

open Cert.KernelIdeal Cert.KernelIdeal.Gen Idealize.ShloMosaic Idealize.ShloMosaic.TcCoe Idealize.ShloMosaic.ValueIdx

variable {F : FTy → Type} [FloatOps F] [Named F]

/-! ## The block as one function -/

/-- Column `jw` of the block as the body computes it from the bins and masses of all rows and atoms: the row sums of
    the lower mass where the lower bin is `jw` plus the upper mass where the upper bin is `jw`. -/
abbrev colSum (jw : BitVec 32) (l u : IVec S4096x51 32) (wl wu : FVec F S4096x51 .f32) : FVec F S4096 .f32 :=
  multiReduction .add [1] S4096
    (addf (select (cmpi .eq l (broadcast S4096x51 jw)) wl (broadcast S4096x51 (Scalar.ofBits .f32 0x00000000#32)))
      (select (cmpi .eq u (broadcast S4096x51 jw)) wu (broadcast S4096x51 (Scalar.ofBits .f32 0x00000000#32))))
    0x00000000#32 reduces_S4096x51_S4096 (.inl rfl) rfl

/-- The row of a block index, as an index of the 4096 rows. -/
abbrev rowOf (y : S4096x51.Idx) : S4096.Idx :=
  ix1 (⟨(y 0).val, by have h : (y 0).val < 4096 := (y 0).isLt; exact h⟩ : Fin 4096)

/-- The whole block: at (row, column j) the column-j sum at that row. -/
def blockOf (l u : IVec S4096x51 32) (wl wu : FVec F S4096x51 .f32) : Vec F S4096x51 .f32 :=
  fun y => colSum (BitVec.ofNat 32 (y 1).val) l u wl wu (rowOf y)

/-- A stored column (the column sums re-laid as a 4096 × 1 piece), at an index x of the piece, is the block function at
    any block index with x's row and with column j. -/
theorem piece_col (j : ℕ) (l u : IVec S4096x51 32) (wl wu : FVec F S4096x51 .f32) (x : S4096x1.Idx) (y : S4096x51.Idx)
    (h0 : (y 0).val = (x 0).val) (h1 : (y 1).val = j) :
    shapeCast S4096x1 (colSum (F := F) (BitVec.ofNat 32 j) l u wl wu) shapeCasts_S4096_S4096x1 x = blockOf l u wl wu y := by
  have hx0 : (x 0).val < 4096 := (x 0).isLt
  have hx1 : (x 1).val < 1 := (x 1).isLt
  refine (shapeCast_apply _ _ x (ix1 (⟨(x 0).val, hx0⟩ : Fin 4096))
    (by rw [Shape.rowMajor_val_one, Shape.rowMajor_val_two]; show (x 0).val = (x 0).val * 1 + (x 1).val; omega)).trans ?_
  unfold blockOf
  rw [h1]
  congr 1
  funext a
  apply Fin.ext
  match a with
  | ⟨0, _⟩ => exact h0.symm

/-- The body's 51 stores leave the block function of the bins and masses it computed from the loads. -/
theorem out_eq (x0 : Vec F S4096x1 .f32) (x1 : Vec F S4096x51 .f32) (x2 : Vec F S51 .f32) (x3 : Vec F S4096x1 .i32)
    (y : S4096x51.Idx) :
    out0_4 x0 x1 x2 x3 y
      = blockOf (k0_pay3 (View.ld x0 r0_0) (View.ld x3 r0_0) (View.ld x2 r0_1))
          (k0_pay4 (View.ld x0 r0_0) (View.ld x3 r0_0) (View.ld x2 r0_1))
          (k0_pay6 (View.ld x1 r0_2) (k0_pay5 (View.ld x0 r0_0) (View.ld x3 r0_0) (View.ld x2 r0_1)))
          (k0_pay7 (View.ld x1 r0_2) (k0_pay1 (View.ld x0 r0_0) (View.ld x3 r0_0) (View.ld x2 r0_1))
            (k0_pay3 (View.ld x0 r0_0) (View.ld x3 r0_0) (View.ld x2 r0_1))) y := by
  unfold out0_4
  refine View.canon_apply_of_pieces _ _ ?_ y
    (cover0_4 _ _ _ _ _ _ _ _ _ _ _ _ _ _ _ _ _ _ _ _ _ _ _ _ _ _ _ _ _ _ _ _ _ _ _ _ _ _ _ _ _ _ _ _ _ _ _ _ _ _ _ y)
  intro pc hpc
  repeat
    rcases List.mem_cons.mp hpc with rfl | hpc
    · exact fun x => piece_col _ _ _ _ _ x _ (by show 0 + 1 * (x 0).val = (x 0).val; omega)
        (by have h : (x 1).val < 1 := (x 1).isLt
            have h0 : (x 1).val = 0 := by omega
            show _ + 1 * (x 1).val = _
            rw [h0]; try rfl)
  simp at hpc

/-! ## At the ideal values: the block's entry as a sum of scalar shares -/

/-- The kernel's named reciprocal of the bin width denotes 2^25 / 13421773. -/
theorem named_invD : Named.named (F := Ideal) κ "inv_delta" (φ := .f32) 0x40200000#32 = Bins.invD :=
  IdealRules.named_const.ideal_named_scalar _ _ _ _ rfl

/-- A column of per-row values broadcast over the atoms reads the row's value. -/
theorem bc_col {α : Type} (v : S4096x1.Idx → α) (p : Fin 4096) (a : Fin 51) :
    broadcastTo S4096x51 v broadcasts_S4096x1_S4096x51 (ix2 p a) = v (ix2 p (0 : Fin 1)) :=
  broadcastTo_apply v broadcasts_S4096x1_S4096x51 (ix2 p a) (ix2 p (0 : Fin 1)) (fun c => match c with
    | ⟨0, _⟩ => by show p.val = if (4096 : Nat) = 1 then 0 else p.val; rw [if_neg (by decide)]
    | ⟨1, _⟩ => by show 0 = if (1 : Nat) = 1 then 0 else a.val; rw [if_pos rfl])

/-- A row of per-atom values broadcast over the rows reads the atom's value. -/
theorem bc_row {α : Type} (v : S1x51.Idx → α) (p : Fin 4096) (a : Fin 51) :
    broadcastTo S4096x51 v broadcasts_S1x51_S4096x51 (ix2 p a) = v (ix2 (0 : Fin 1) a) :=
  broadcastTo_apply v broadcasts_S1x51_S4096x51 (ix2 p a) (ix2 (0 : Fin 1) a) (fun c => match c with
    | ⟨0, _⟩ => by show 0 = if (1 : Nat) = 1 then 0 else p.val; rw [if_pos rfl]
    | ⟨1, _⟩ => by show a.val = if (51 : Nat) = 1 then 0 else a.val; rw [if_neg (by decide)])

/-- The 51 atom values laid as one row read the atom's value. -/
theorem cast_row {α : Type} (v : S51.Idx → α) (a : Fin 51) :
    shapeCast S1x51 v shapeCasts_S51_S1x51 (ix2 (0 : Fin 1) a) = v (ix1 a) :=
  shapeCast_apply v shapeCasts_S51_S1x51 (ix2 (0 : Fin 1) a) (ix1 a)
    (by rw [Shape.rowMajor_val_one, Shape.rowMajor_val_two]; show a.val = 0 * 51 + a.val; omega)

/-- The positions the body computes: at (row p, atom a) the position of atom a for row p's reward and mask word. -/
theorem pos_at (P0 : Vec Ideal S4096x1 .f32) (P2 : Vec Ideal S4096x1 .i32) (P1 : Vec Ideal S51 .f32) (p : Fin 4096) (a : Fin 51) :
    k0_pay1 (F := Ideal) P0 P2 P1 (ix2 p a)
      = Bins.pos (P0 (ix2 p (0 : Fin 1))) (P1 (ix1 a)) (P2 (ix2 p (0 : Fin 1))) := by
  unfold k0_pay1 Bins.pos
  simp only [mulf_apply, subf_apply, addf_apply, minimumf_apply, maximumf_apply, broadcast_apply, sitofp_apply,
    bc_col, bc_row, cast_row, shapeCast_self, named_invD]
  rfl

/-- The bins and masses the body computes are, entry by entry, the scalar ones of the position there. -/
theorem lo_at (P0 : Vec Ideal S4096x1 .f32) (P2 : Vec Ideal S4096x1 .i32) (P1 : Vec Ideal S51 .f32) (i : S4096x51.Idx) :
    k0_pay3 (F := Ideal) P0 P2 P1 i = Bins.lo (k0_pay1 (F := Ideal) P0 P2 P1 i) := rfl
theorem hi_at (P0 : Vec Ideal S4096x1 .f32) (P2 : Vec Ideal S4096x1 .i32) (P1 : Vec Ideal S51 .f32) (i : S4096x51.Idx) :
    k0_pay4 (F := Ideal) P0 P2 P1 i = Bins.hi (k0_pay1 (F := Ideal) P0 P2 P1 i) := rfl
theorem wlo_at (P0 : Vec Ideal S4096x1 .f32) (P2 : Vec Ideal S4096x1 .i32) (P1 : Vec Ideal S51 .f32) (P3 : Vec Ideal S4096x51 .f32)
    (i : S4096x51.Idx) :
    k0_pay6 (F := Ideal) P3 (k0_pay5 (F := Ideal) P0 P2 P1) i = Bins.wLo (P3 i) (k0_pay1 (F := Ideal) P0 P2 P1 i) := rfl
theorem whi_at (P0 : Vec Ideal S4096x1 .f32) (P2 : Vec Ideal S4096x1 .i32) (P1 : Vec Ideal S51 .f32) (P3 : Vec Ideal S4096x51 .f32)
    (i : S4096x51.Idx) :
    k0_pay7 (F := Ideal) P3 (k0_pay1 (F := Ideal) P0 P2 P1) (k0_pay3 (F := Ideal) P0 P2 P1) i
      = Bins.wHi (P3 i) (k0_pay1 (F := Ideal) P0 P2 P1 i) := rfl

/-- The block function at (row p, column j): the sum over the atoms of the selected masses. -/
theorem blockOf_at (l u : IVec S4096x51 32) (wl wu : FVec Ideal S4096x51 .f32) (p : Fin 4096) (j : Fin 51) :
    blockOf (F := Ideal) l u wl wu (ix2 p j)
      = ∑ a : Fin 51, (Scalar.select (IntOp.cmpi .eq (l (ix2 p a)) (BitVec.ofNat 32 j.val)) (wl (ix2 p a)) (Ideal.ofBits .f32 0x00000000#32)
          + Scalar.select (IntOp.cmpi .eq (u (ix2 p a)) (BitVec.ofNat 32 j.val)) (wu (ix2 p a)) (Ideal.ofBits .f32 0x00000000#32)) := by
  show colSum (F := Ideal) (BitVec.ofNat 32 j.val) l u wl wu (ix1 p) = _
  refine (Ideal.multiReduction_add_single _ 0x00000000#32 reduces_S4096x51_S4096 (.inl rfl) rfl (ix1 p)).trans ?_
  show ∑ a : Fin 51, _ = _
  refine Finset.sum_congr rfl (fun a _ => ?_)
  have hl : reduces_S4096x51_S4096.lift (ix1 p) a = ix2 p a := by
    funext c
    apply Fin.ext
    match c with
    | ⟨0, _⟩ => rfl
    | ⟨1, _⟩ => rfl
  rw [hl]
  rfl

theorem hz2 : (![0, 0] : Fin 2 → Nat) = fun _ => 0 := funext fun a => by fin_cases a <;> rfl
theorem hz1 : (![0] : Fin 1 → Nat) = fun _ => 0 := funext fun a => by fin_cases a; rfl

/-- What the body leaves at (row p, column j) of its output block, from its four input blocks: the sum over the atoms
    of the share atom a of row p gives bin j. -/
theorem out_at (x0 : Vec Ideal S4096x1 .f32) (x1 : Vec Ideal S4096x51 .f32) (x2 : Vec Ideal S51 .f32) (x3 : Vec Ideal S4096x1 .i32)
    (p : Fin 4096) (j : Fin 51) :
    out0_4 (F := Ideal) x0 x1 x2 x3 (ix2 p j)
      = ∑ a : Fin 51, Bins.share (BitVec.ofNat 32 j.val) (x1 (ix2 p a))
          (Bins.pos (x0 (ix2 p (0 : Fin 1))) (x2 (ix1 a)) (x3 (ix2 p (0 : Fin 1)))) := by
  rw [out_eq, blockOf_at]
  simp only [View.ld_unit_zero (S := S4096x1) hz2, View.ld_unit_zero (S := S51) hz1, View.ld_unit_zero (S := S4096x51) hz2]
  refine Finset.sum_congr rfl (fun a _ => ?_)
  rw [lo_at, hi_at, wlo_at, whi_at, pos_at]
  rfl

end Cert.KernelIdeal.Block

end
-- ==== Proof.Target.lean ====
/-
  The projected distribution as one function of the four argument arrays: entry (row r, bin j) is the sum over the 51
  atoms a of the share that atom a of row r — of mass dist[r, a], at the position of the atom value sup[a] for the
  reward rew[r] and the mask word mask[r] — gives bin j. Both programs are shown to end with this array.
-/
import proofs.«155263_j38955353375480_1_alg».proof.Proof.Bins
import Idealize.ShloMosaic.Lib.ValueIdx

noncomputable section

namespace Cert.Target

open Idealize.ShloMosaic Idealize.ShloMosaic.ValueIdx
open scoped BigOperators

/-- The row of an index of the result. -/
abbrev rowIx (i : (⟨2, ![1048576, 51]⟩ : Shape).Idx) : Fin 1048576 :=
  ⟨(i 0).val, by have h : (i 0).val < 1048576 := (i 0).isLt; exact h⟩

/-- The projected distribution. -/
def projected (rew : (⟨1, ![1048576]⟩ : Shape).Idx → EReal) (dist : (⟨2, ![1048576, 51]⟩ : Shape).Idx → EReal)
    (sup : (⟨1, ![51]⟩ : Shape).Idx → EReal) (mask : (⟨1, ![1048576]⟩ : Shape).Idx → BitVec 32) :
    (⟨2, ![1048576, 51]⟩ : Shape).Idx → EReal :=
  fun i => ∑ a : Fin 51, Bins.share (BitVec.ofNat 32 (i 1).val) (dist (ix2 (rowIx i) a))
    (Bins.pos (rew (ix1 (rowIx i))) (sup (ix1 a)) (mask (ix1 (rowIx i))))

/-- At (row r, bin j). -/
theorem projected_at (rew : (⟨1, ![1048576]⟩ : Shape).Idx → EReal) (dist : (⟨2, ![1048576, 51]⟩ : Shape).Idx → EReal)
    (sup : (⟨1, ![51]⟩ : Shape).Idx → EReal) (mask : (⟨1, ![1048576]⟩ : Shape).Idx → BitVec 32) (r : Fin 1048576) (j : Fin 51) :
    projected rew dist sup mask (ix2 r j)
      = ∑ a : Fin 51, Bins.share (BitVec.ofNat 32 j.val) (dist (ix2 r a)) (Bins.pos (rew (ix1 r)) (sup (ix1 a)) (mask (ix1 r))) := rfl

end Cert.Target

end
-- ==== Proof.KernelArray.lean ====
/-
  The kernel's result array. The grid has 256 points; point t fetches rows 4096·t … 4096·t + 4095 of the reward
  column, of the mask column and of the masses, the whole row of 51 atom values, and writes back rows
  4096·t … 4096·t + 4095 of the result. So what point t writes back is block t of the projected distribution of the
  argument arrays (the block function of `KernelBlock` read at the rows the point fetched), the 256 blocks cover the
  array, and the array ends as the projected distribution. The reward and mask columns are the [N] arguments re-laid
  as [N, 1] by the program before the launch.
-/
import proofs.«155263_j38955353375480_1_alg».proof.Proof.ValueBlocks
import proofs.«155263_j38955353375480_1_alg».proof.Proof.KernelBlock
import proofs.«155263_j38955353375480_1_alg».proof.Proof.Target
import Idealize.ShloMosaic.Lib.StableHlo.Run

set_option maxRecDepth 16384

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The argument arrays -/

abbrev rewArr (c : Dev nD) : Vec Ideal S1048576 .f32 := m ((c : Thread nD τ).loc main_arg0)
abbrev distArr (c : Dev nD) : Vec Ideal S1048576x51 .f32 := m ((c : Thread nD τ).loc main_arg1)
abbrev supArr (c : Dev nD) : Vec Ideal S51 .f32 := m ((c : Thread nD τ).loc main_arg2)
abbrev maskArr (c : Dev nD) : Vec Ideal S1048576 .i32 := m ((c : Thread nD τ).loc main_arg3)

/-- The reward column as the launch finds it: the reward argument re-laid as [N, 1]. -/
theorem V_rew (c : Dev nD) :
    (V m c main_v0 : S1048576x1.Idx → EReal) = shapeCast S1048576x1 (rewArr m c) shapeCasts_S1048576_S1048576x1 := by
  dsimp only [V, hostOps0]; after_results; rfl

/-- The mask column as the launch finds it: the mask argument re-laid as [N, 1]. -/
theorem V_mask (c : Dev nD) :
    (V m c main_v1 : S1048576x1.Idx → BitVec 32) = shapeCast S1048576x1 (maskArr m c) shapeCasts_S1048576_S1048576x1 := by
  dsimp only [V, hostOps0]; after_results; rfl

/-! ## The grid -/

/-- The printed index maps, decided over the 256 points: every row-blocked window is at block (t, 0), the atom values at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem pt_lt (t : Fin cfg0.N) : t.val < 256 := by
  have h := t.isLt
  have e : cfg0.N = 256 := N_0
  omega

/-- Row p of point t's blocks, as a row of the arrays. -/
abbrev rowAt (t : Fin cfg0.N) (p : Fin 4096) : Fin 1048576 :=
  ⟨t.val * 4096 + p.val, by have := pt_lt t; have := p.isLt; omega⟩

/-! ## The blocks a point fetches -/

theorem blk_dist (c : Dev nD) (t : Fin cfg0.N) (p : Fin 4096) (a : Fin 51) :
    iblk m c 1 t (ix2 p a) = distArr m c (ix2 (rowAt t p) a) := by
  obtain ⟨e00, e01, e10, e11, e20, e30, e31, e40, e41⟩ := idx_facts t
  show V m c main_arg1 (((cfg0.win 1).blk t).view.emb (ix2 p a)) = _
  rw [V_main_arg1]
  show m ((c : Thread nD τ).loc main_arg1) (((cfg0.win 1).blk t).view.emb (ix2 p a)) = m ((c : Thread nD τ).loc main_arg1) (ix2 (rowAt t p) a)
  congr 1
  funext d
  apply Fin.ext
  match d with
  | ⟨0, _⟩ => show win0_1.index t (0 : Fin 2) * 4096 + 1 * p.val = t.val * 4096 + p.val; rw [e10]; omega
  | ⟨1, _⟩ => show win0_1.index t (1 : Fin 2) * 51 + 1 * a.val = a.val; rw [e11]; omega

theorem blk_sup (c : Dev nD) (t : Fin cfg0.N) (a : Fin 51) :
    iblk m c 2 t (ix1 a) = supArr m c (ix1 a) := by
  obtain ⟨e00, e01, e10, e11, e20, e30, e31, e40, e41⟩ := idx_facts t
  show V m c main_arg2 (((cfg0.win 2).blk t).view.emb (ix1 a)) = _
  rw [V_main_arg2]
  show m ((c : Thread nD τ).loc main_arg2) (((cfg0.win 2).blk t).view.emb (ix1 a)) = m ((c : Thread nD τ).loc main_arg2) (ix1 a)
  congr 1
  funext d
  apply Fin.ext
  match d with
  | ⟨0, _⟩ => show win0_2.index t (0 : Fin 1) * 51 + 1 * a.val = a.val; rw [e20]; omega

theorem blk_rew (c : Dev nD) (t : Fin cfg0.N) (p : Fin 4096) :
    iblk m c 0 t (ix2 p (0 : Fin 1)) = rewArr m c (ix1 (rowAt t p)) := by
  obtain ⟨e00, e01, e10, e11, e20, e30, e31, e40, e41⟩ := idx_facts t
  show (V m c main_v0 : S1048576x1.Idx → EReal) (((cfg0.win 0).blk t).view.emb (ix2 p (0 : Fin 1))) = _
  rw [V_rew]
  refine shapeCast_apply _ _ _ (ix1 (rowAt t p)) ?_
  rw [Shape.rowMajor_val_one, Shape.rowMajor_val_two]
  show t.val * 4096 + p.val = (win0_0.index t (0 : Fin 2) * 4096 + 1 * p.val) * 1 + (win0_0.index t (1 : Fin 2) * 1 + 1 * 0)
  rw [e00, e01]; omega

theorem blk_mask (c : Dev nD) (t : Fin cfg0.N) (p : Fin 4096) :
    iblk m c 3 t (ix2 p (0 : Fin 1)) = maskArr m c (ix1 (rowAt t p)) := by
  obtain ⟨e00, e01, e10, e11, e20, e30, e31, e40, e41⟩ := idx_facts t
  show (V m c main_v1 : S1048576x1.Idx → BitVec 32) (((cfg0.win 3).blk t).view.emb (ix2 p (0 : Fin 1))) = _
  rw [V_mask]
  refine shapeCast_apply _ _ _ (ix1 (rowAt t p)) ?_
  rw [Shape.rowMajor_val_one, Shape.rowMajor_val_two]
  show t.val * 4096 + p.val = (win0_3.index t (0 : Fin 2) * 4096 + 1 * p.val) * 1 + (win0_3.index t (1 : Fin 2) * 1 + 1 * 0)
  rw [e30, e31]; omega

/-! ## What a point writes back, the cover, the array -/

/-- Point t's result block at a block index is the projected distribution at the array index under it. -/
theorem flushed_at (c : Dev nD) (t : Fin cfg0.N) (y : S4096x51.Idx) :
    out0_4 (iblk m c 0 t) (iblk m c 1 t) (iblk m c 2 t) (iblk m c 3 t) y
      = Target.projected (rewArr m c) (distArr m c) (supArr m c) (maskArr m c) (((cfg0.win 4).blk t).view.emb y) := by
  obtain ⟨p, j, rfl⟩ : ∃ (p : Fin 4096) (j : Fin 51), y = ix2 p j := ⟨y 0, y 1, eq_ix2 y⟩
  obtain ⟨e00, e01, e10, e11, e20, e30, e31, e40, e41⟩ := idx_facts t
  refine (Block.out_at (iblk m c 0 t) (iblk m c 1 t) (iblk m c 2 t) (iblk m c 3 t) p j).trans ?_
  have hy : ((cfg0.win 4).blk t).view.emb (ix2 p j) = ix2 (rowAt t p) j := by
    funext d
    apply Fin.ext
    match d with
    | ⟨0, _⟩ => show win0_4.index t (0 : Fin 2) * 4096 + 1 * p.val = t.val * 4096 + p.val; rw [e40]; omega
    | ⟨1, _⟩ => show win0_4.index t (1 : Fin 2) * 51 + 1 * j.val = j.val; rw [e41]; omega
  rw [hy, Target.projected_at]
  refine Finset.sum_congr rfl (fun a _ => ?_)
  rw [blk_dist m c t p a, blk_rew m c t p, blk_sup m c t a, blk_mask m c t p]

/-- What point t writes back is block t of the projected distribution of the argument arrays. -/
theorem flushed_eq (c : Dev nD) (t : Fin cfg0.N) :
    (dats m 0 c).flushed 4 t
      = ((cfg0.win 4).blk t).view.read (Elt Ideal) (Target.projected (rewArr m c) (distArr m c) (supArr m c) (maskArr m c)) := by
  rw [Cert.KernelIdeal.ValueP.flushed4]
  funext y
  exact flushed_at m c t y

/-- An index of the result is in point t's block iff each coordinate is in the block's range on its axis. -/
theorem mem_blk (t : Fin cfg0.N) (i : S1048576x51.Idx) :
    i ∈ ((cfg0.win 4).blk t).view.set ↔ ∀ a : Fin 2, win0_4.index t a * S4096x51.size a ≤ (i a).val ∧ (i a).val < win0_4.index t a * S4096x51.size a + S4096x51.size a := by
  show i ∈ ((View.whole main_v2).slice (win0_4.rect t)).set ↔ _
  rw [View.set_slice_whole, Rect.mem_set_unit]
  exact Iff.rfl

/-- Every index of the result is in the block of the point its row falls to. -/
theorem cover (i : S1048576x51.Idx) : ∃ t : Fin cfg0.N, (cfg0.win 4).flush t = true ∧ i ∈ ((cfg0.win 4).blk t).view.set := by
  have hi0 : (i 0).val < 1048576 := (i 0).isLt
  have hi1 : (i 1).val < 51 := (i 1).isLt
  let t : Fin cfg0.N := ⟨(i 0).val / 4096, by rw [show cfg0.N = 256 from N_0]; omega⟩
  obtain ⟨e00, e01, e10, e11, e20, e30, e31, e40, e41⟩ := idx_facts t
  have e40' : win0_4.index t (0 : Fin 2) = (i 0).val / 4096 := e40
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 51 ≤ (i 1).val ∧ (i 1).val < win0_4.index t (1 : Fin 2) * 51 + 51; omega

/-- The result array after the run is the projected distribution of the argument arrays. -/
theorem final (c : Dev nD) :
    (dats m 0 c).arrAt 4 cfg0.N = Target.projected (rewArr m c) (distArr m c) (supArr m c) (maskArr m c) :=
  (dats m 0 c).arrAt_eq_of_cover 4 _ (fun t _ => flushed_eq m c t) cover

/-- The kernel's run: it ends, the result array the projected distribution of the arguments, the arguments unchanged. -/
theorem run : θ_run defs (onTc (τ := τ) (main (F := Ideal))) ⟨m, fun _ => 0, ρ⟩ fun r => ∀ c : Dev nD,
      r.2.mem ((c : Thread nD τ).loc main_v2) = Target.projected (rewArr m c) (distArr m c) (supArr m c) (maskArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.ValueP.run_blocks m ρ)

end Cert.KernelIdeal.Array

end
-- ==== Proof.LibFlatScatter.lean ====
/-
  General facts about the host's accumulating scatter into a flat (rank-1) array of M entries, with an [n, 1] column of
  scatter indices and n scalar updates (no window axis, the operand's one axis inserted and named by the scatter map,
  the index vector on axis 1) — the accumulation `m.at[idx].add(v)` on one-dimensional arrays:
  * at the ideal values it is the operand's entry plus the sum of the updates that land on it;
  * update j lands on entry i exactly when j's scatter index, read signed, is i;
  * an index word that reads non-negative is left alone by the wrap "if a < 0 then a + M else a" that precedes such a scatter.
-/
import Idealize.ShloMosaic.PureOps.Ideal
import Idealize.ShloMosaic.Lib.ValueIdx

noncomputable section

namespace Cert.LibFlatScatter

open Idealize.ShloMosaic Idealize.ShloMosaic.ValueIdx
open scoped BigOperators

/-- The accumulating scatter at the ideal values: each operand entry plus the sum of the updates landing on it. -/
theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

/-- Every entry of a one-entry list is that entry. -/
theorem getElem_of_eq_singleton {α : Type} {l : List α} {a : α} (h : l = [a]) (k : Nat) (hk : k < l.length) : l[k] = a := by
  subst h
  have hk0 : k = 0 := by simpa using hk
  subst hk0; rfl

/-- Where a flat scatter lands: update j lands on entry i exactly when the scatter index of position j, read signed,
    is i's position. -/
theorem flat_lands_iff {M n w : Nat} (d : ScatterDims ⟨1, ![M]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (j : (⟨1, ![n]⟩ : Shape).Idx) (i : (⟨1, ![M]⟩ : Shape).Idx) :
    d.resultIdx? j idx = some i ↔ (idx (ix2 (⟨(j 0).val, (j 0).isLt⟩ : Fin n) (0 : Fin 1))).toInt = ((i 0).val : Int) := by
  have hsk : d.sKept = [] := by
    show Shape.kept _ d.insertedWindowDims = []
    rw [hins]; rfl
  have hus : d.uScatter = [0] := by
    show Shape.kept _ d.updateWindowDims = [0]
    rw [huw]; rfl
  have hw0 : d.window j (0 : Fin 1) = 0 := by
    unfold ScatterDims.window
    rw [dif_neg (by rw [hsk]; simp)]
  have hs0 : d.start j idx (0 : Fin 1) = (idx (ix2 (⟨(j 0).val, (j 0).isLt⟩ : Fin n) (0 : Fin 1))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (0 : Fin 1) d.scatterDimsToOperandDims = 0
      rw [hsd]; simp
  have hiM : (i 0).val < M := (i 0).isLt
  unfold ScatterDims.resultIdx?
  constructor
  · intro h
    split at h
    · next hall =>
      have hi := Option.some.inj h
      have h0 := hall (0 : Fin 1)
      rw [hs0, hw0] at h0
      have hv : (i 0).val = (d.start j idx (0 : Fin 1) + d.window j (0 : Fin 1)).toNat := by
        rw [← hi]
      rw [hs0, hw0] at hv
      omega
    · exact absurd h (by simp)
  · intro h
    have hall : ∀ a : Fin 1, 0 ≤ d.start j idx a + (d.window j a : Int)
        ∧ d.start j idx a + (d.window j a : Int) < ((⟨1, ![M]⟩ : Shape).size a : Int) := by
      intro a
      match a with
      | ⟨0, _⟩ =>
        show 0 ≤ d.start j idx (0 : Fin 1) + (d.window j (0 : Fin 1) : Int)
          ∧ d.start j idx (0 : Fin 1) + (d.window j (0 : Fin 1) : Int) < (M : Int)
        rw [hs0, hw0, h]; omega
    rw [dif_pos hall]
    congr 1
    funext a
    match a with
    | ⟨0, _⟩ =>
      apply Fin.ext
      show (d.start j idx (0 : Fin 1) + (d.window j (0 : Fin 1) : Int)).toNat = (i 0).val
      rw [hs0, hw0, h]; omega

/-- A word that reads non-negative as a signed number is left alone by the wrap "if a < 0 then a + N else a". -/
theorem wrap_of_nonneg (a Nw : BitVec 32) (h : 0 ≤ a.toInt) :
    Scalar.select (IntOp.cmpi .slt a 0#32) (IntOp.addi a Nw) a = a := by
  have hs : a.slt 0#32 = false := by
    simp only [BitVec.slt, BitVec.toInt_zero]
    exact decide_eq_false (by omega)
  have hc : IntOp.cmpi .slt a 0#32 = 0#1 := by
    unfold IntOp.cmpi
    show BitVec.ofBool (a.slt 0#32) = 0#1
    rw [hs]; rfl
  unfold Scalar.select
  rw [hc, if_neg (by decide)]

end Cert.LibFlatScatter

end
-- ==== Proof.RowSums.lean ====
/-
  Three facts for reading the reference's flat scatter of a [1048576, 51] array of updates, kept apart from the
  programs:
  * the flat index word "bin + 51 · row" of a bin in [0, 50] and a row below 2^20 reads, signed, as that number;
  * selecting a mass where a bin word equals the word of j, else zero, is an if-then-else on the bin's value;
  * a sum over the flat positions k (row k / 51, atom k % 51) whose bin, offset by 51 · row, lands on 51 · r + j is
    the sum over the atoms of row r whose bin is j: with bins in [0, 50] an offset bin cannot leave its own row.
-/
import Idealize.ShloMosaic.PureOps.Ideal
import Idealize.ShloMosaic.Lib.ValueIdx
import Idealize.ShloMosaic.Lib.StableHlo.Predicate
import proofs.«155263_j38955353375480_1_alg».proof.Proof.Consts

noncomputable section

namespace Cert.RowSums

open Idealize.ShloMosaic Idealize.ShloMosaic.ValueIdx Idealize.ShloMosaic.StableHlo.Predicate
open scoped BigOperators

/-- The flat index word of bin word l (at most 50) in row r (below 2^20) reads, signed, as l + 51 · r. -/
theorem word_toInt (l : BitVec 32) (hl : l.toNat ≤ 50) (r : ℕ) (hr : r < 1048576) :
    (IntOp.addi l (IntOp.muli (BitVec.ofNat 32 r) 51#32)).toInt = ((l.toNat + 51 * r : ℕ) : Int) := by
  unfold IntOp.addi IntOp.muli
  have hn : (l + BitVec.ofNat 32 r * 51#32).toNat = l.toNat + 51 * r := by
    simp only [BitVec.toNat_add, BitVec.toNat_mul, BitVec.toNat_ofNat]
    omega
  rw [toInt_eq_toNat_of_lt (by omega), hn]

/-- Selecting x where the word w equals the word of j (else the pattern of +0.0) is x if w's value is j, else 0. -/
theorem select_eq_ite (w : BitVec 32) (j : ℕ) (hj : j < 2 ^ 32) (x : EReal) :
    Scalar.select (IntOp.cmpi .eq w (BitVec.ofNat 32 j)) x (Ideal.ofBits .f32 0x00000000#32) = if w.toNat = j then x else 0 := by
  rw [Cert.Consts.ofBits_zero]
  unfold Scalar.select
  have hiff : IntOp.cmpi .eq w (BitVec.ofNat 32 j) = 1#1 ↔ w.toNat = j := by
    rw [cmpi_eq_iff]
    constructor
    · intro h; rw [h, BitVec.toNat_ofNat]; omega
    · intro h; apply BitVec.eq_of_toNat_eq; rw [BitVec.toNat_ofNat, h]; omega
  by_cases h : w.toNat = j
  · rw [if_pos h]; exact if_pos (hiff.mpr h)
  · rw [if_neg h]; exact if_neg (fun hc => h (hiff.mp hc))

/-- The flat position of (row r, atom a). -/
abbrev flat (r : Fin 1048576) (a : Fin 51) : Fin 53477376 := ⟨r.val * 51 + a.val, by have := r.isLt; have := a.isLt; omega⟩

/-- The row and the atom of a flat position. -/
abbrev rowOf (k : (⟨1, ![53477376]⟩ : Shape).Idx) : Fin 1048576 :=
  ⟨(k 0).val / 51, by have h : (k 0).val < 53477376 := (k 0).isLt; omega⟩
abbrev atomOf (k : (⟨1, ![53477376]⟩ : Shape).Idx) : Fin 51 :=
  ⟨(k 0).val % 51, by omega⟩

/-- A sum over the flat positions whose offset bin lands on 51 · r + j is the sum over row r's atoms whose bin is j. -/
theorem sum_filter_flat {M : Type} [AddCommMonoid M] (B : Fin 1048576 → Fin 51 → ℕ) (hB : ∀ r a, B r a ≤ 50)
    (f : (⟨1, ![53477376]⟩ : Shape).Idx → M) (r : Fin 1048576) (j : Fin 51)
    (P : (⟨1, ![53477376]⟩ : Shape).Idx → Prop) {dP : DecidablePred P}
    (hP : ∀ k, P k ↔ B (rowOf k) (atomOf k) + 51 * ((k 0).val / 51) = r.val * 51 + j.val) :
    ∑ k ∈ Finset.univ.filter P, f k = ∑ a : Fin 51, if B r a = j.val then f (ix1 (flat r a)) else 0 := by
  have hinj : ∀ a ∈ (Finset.univ.filter fun a : Fin 51 => B r a = j.val), ∀ a' ∈ (Finset.univ.filter fun a : Fin 51 => B r a = j.val),
      (ix1 (flat r a) : (⟨1, ![53477376]⟩ : Shape).Idx) = ix1 (flat r a') → a = a' := by
    intro a _ a' _ h
    have h0 := congrArg (fun k : (⟨1, ![53477376]⟩ : Shape).Idx => (k 0).val) h
    apply Fin.ext
    have e : r.val * 51 + a.val = r.val * 51 + a'.val := h0
    omega
  have himg : Finset.univ.filter P = (Finset.univ.filter fun a : Fin 51 => B r a = j.val).image (fun a => (ix1 (flat r a) : (⟨1, ![53477376]⟩ : Shape).Idx)) := by
    ext k
    have hk : (k 0).val < 53477376 := (k 0).isLt
    have hr := r.isLt
    have hj := j.isLt
    simp only [Finset.mem_filter, Finset.mem_univ, true_and, Finset.mem_image]
    rw [hP k]
    constructor
    · intro h
      have hb := hB (rowOf k) (atomOf k)
      have hrow : (k 0).val / 51 = r.val := by omega
      have hrk : rowOf k = r := Fin.ext hrow
      refine ⟨atomOf k, ?_, ?_⟩
      · rw [hrk] at h; omega
      · rw [eq_ix1 k]
        congr 1
        apply Fin.ext
        show r.val * 51 + (k 0).val % 51 = (k 0).val
        omega
    · rintro ⟨a, ha, rfl⟩
      have ha' := a.isLt
      have hrow : (r.val * 51 + a.val) / 51 = r.val := by omega
      have hat : (r.val * 51 + a.val) % 51 = a.val := by omega
      have hrk : rowOf (ix1 (flat r a)) = r := Fin.ext hrow
      have hak : atomOf (ix1 (flat r a)) = a := Fin.ext hat
      rw [hrk, hak, ha]
      show j.val + 51 * ((r.val * 51 + a.val) / 51) = r.val * 51 + j.val
      omega
  rw [himg, Finset.sum_image hinj, Finset.sum_filter]

end Cert.RowSums

end
-- ==== Proof.RefValue.lean ====
/-
  The reference's result array is the projected distribution of its arguments.

  The reference computes the positions, bins and masses of all rows and atoms as [1048576, 51] arrays, flattens the
  masses to 53477376 entries, and adds them into a flat array of zeros in two accumulating scatters: the lower masses
  at the flat indices "lower bin + 51 · row", then the upper masses at "upper bin + 51 · row" (each index first passed
  through the wrap "if i < 0 then i + 53477376 else i", which changes nothing on these non-negative indices); the
  flat array re-laid as [1048576, 51] is the result. At the ideal values an accumulating scatter adds to each entry
  the sum of the updates landing on it; since the bins are in [0, 50], the update of (row r', atom a) lands on flat
  entry 51 · r + j exactly when r' = r and its bin is j. So entry (r, j) of the result is 0 plus the lower masses of
  row r's atoms whose lower bin is j plus the upper masses of those whose upper bin is j: the projected distribution.
-/
import proofs.«155263_j38955353375480_1_alg».proof.Proof.Gen.ReferenceIdeal.Read
import proofs.«155263_j38955353375480_1_alg».proof.Proof.Bins
import proofs.«155263_j38955353375480_1_alg».proof.Proof.Target
import proofs.«155263_j38955353375480_1_alg».proof.Proof.LibFlatScatter
import proofs.«155263_j38955353375480_1_alg».proof.Proof.RowSums
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.RowSums (flat rowOf atomOf)
open scoped BigOperators

variable (x0 : (⟨S1048576, .f32⟩ : BufTy).Contents (Elt Ideal)) (x1 : (⟨S1048576x51, .f32⟩ : BufTy).Contents (Elt Ideal))
  (x2 : (⟨S51, .f32⟩ : BufTy).Contents (Elt Ideal)) (x3 : (⟨S1048576, .i32⟩ : BufTy).Contents (Elt Ideal))

/-! ## Positions, bins and masses, entry by entry -/

/-- The reference's position array at (row r, atom a) is the position of atom a for row r's reward and mask word:
    its quotient by the bin width D is the product with 1 / D. -/
theorem pos_at (r : Fin 1048576) (a : Fin 51) :
    val_main_v15 (F := Ideal) x0 x2 x3 (ix2 r a) = Bins.pos (x0 (ix1 r)) (x2 (ix1 a)) (x3 (ix1 r)) := by
  have h1 : idx_main_v1 (idx_main_v9 (ix2 r a)) = ix1 r := funext fun d => match d with | ⟨0, _⟩ => rfl
  have h2 : idx_main_v2 (idx_main_v6 (ix2 r a)) = ix1 a := funext fun d => match d with | ⟨0, _⟩ => rfl
  have h3 : idx_main_v5 (idx_main_v7 (ix2 r a)) = ix1 r := funext fun d => match d with | ⟨0, _⟩ => rfl
  simp only [val_main_v15_apply, val_main_v14_apply, val_main_cst_3_apply, val_main_v13_apply, val_main_v12_apply,
    val_main_cst_2_apply, val_main_v11_apply, val_main_call0_v4_apply, val_main_call0_v3_apply, val_main_cst_1_apply,
    val_main_call0_v2_apply, val_main_call0_v1_apply, val_main_call0_v0_apply, val_main_cst_0_apply, val_main_v10_apply,
    val_main_v9_apply, val_main_v1_apply, val_main_v8_apply, val_main_v6_apply, val_main_v4_apply, val_main_v3_apply,
    val_main_cst_apply, val_main_v2_apply, val_main_v7_apply, val_main_v5_apply, val_main_v0_apply, h1, h2, h3]
  unfold Bins.pos Bins.invD
  show Ideal.div (min (Ideal.ofBits .f32 0x41200000#32) (max (Ideal.ofBits .f32 0xC1200000#32)
      (x0 (ix1 r) + (Ideal.ofBits .f32 0x3F7D70A4#32 * x2 (ix1 a)) * (((x3 (ix1 r)).toInt : ℝ) : EReal)))
        - Ideal.ofBits .f32 0xC1200000#32) (Ideal.ofBits .f32 0x3ECCCCCD#32) = _
  rw [Cert.Consts.ofBits_width, Ideal.div_coe (by norm_num)]
  have e : (1 / (13421773 / 33554432) : ℝ) = 33554432 / 13421773 := by norm_num
  rw [e]

theorem lo_at (i : S1048576x51.Idx) :
    val_main_v26 (F := Ideal) x0 x2 x3 i = Bins.lo (val_main_v15 (F := Ideal) x0 x2 x3 i) := rfl
theorem hi_at (i : S1048576x51.Idx) :
    val_main_v33 (F := Ideal) x0 x2 x3 i = Bins.hi (val_main_v15 (F := Ideal) x0 x2 x3 i) := rfl
theorem wlo_at (i : S1048576x51.Idx) :
    val_main_v36 (F := Ideal) x0 x1 x2 x3 i = Bins.wLo (x1 i) (val_main_v15 (F := Ideal) x0 x2 x3 i) := rfl
theorem whi_at (i : S1048576x51.Idx) :
    val_main_v39 (F := Ideal) x0 x1 x2 x3 i = Bins.wHi (x1 i) (val_main_v15 (F := Ideal) x0 x2 x3 i) := rfl

/-- The two bin values of (row r, atom a). -/
abbrev binLo (r : Fin 1048576) (a : Fin 51) : ℕ := (Bins.lo (Bins.pos (x0 (ix1 r)) (x2 (ix1 a)) (x3 (ix1 r)))).toNat
abbrev binHi (r : Fin 1048576) (a : Fin 51) : ℕ := (Bins.hi (Bins.pos (x0 (ix1 r)) (x2 (ix1 a)) (x3 (ix1 r)))).toNat

theorem binLo_le (r : Fin 1048576) (a : Fin 51) : binLo x0 x2 x3 r a ≤ 50 := (Bins.bins_range _ _ _).1
theorem binHi_le (r : Fin 1048576) (a : Fin 51) : binHi x0 x2 x3 r a ≤ 50 := (Bins.bins_range _ _ _).2

/-! ## The flat scatter indices -/

theorem flat_ix (k : S53477376.Idx) : idx_main_v47 k = ix2 (rowOf k) (atomOf k) :=
  funext fun d => match d with | ⟨0, _⟩ => rfl | ⟨1, _⟩ => rfl

/-- The offset 51 · row the reference adds to the bins, at (row, atom). -/
theorem offset_at (i : S1048576x51.Idx) :
    val_main_v45 (F := Ideal) i = IntOp.muli (BitVec.ofNat 32 (i 0).val) 51#32 := by
  rw [val_main_v45_apply, val_main_v43_apply, val_main_v42_apply, val_main_v40_apply, val_main_v41_apply, val_main_c_7_apply]

/-- The lower flat index of position k, read signed: lower bin + 51 · row. -/
theorem wordLo_toInt (k : S53477376.Idx) :
    (val_main_v47 (F := Ideal) x0 x2 x3 k).toInt = ((binLo x0 x2 x3 (rowOf k) (atomOf k) + 51 * ((k 0).val / 51) : ℕ) : Int) := by
  rw [val_main_v47_apply, flat_ix, val_main_v46_apply, offset_at, lo_at, pos_at]
  exact Cert.RowSums.word_toInt _ (binLo_le x0 x2 x3 _ _) _ (rowOf k).isLt

/-- The upper flat index of position k, read signed: upper bin + 51 · row. -/
theorem wordHi_toInt (k : S53477376.Idx) :
    (val_main_v58 (F := Ideal) x0 x2 x3 k).toInt = ((binHi x0 x2 x3 (rowOf k) (atomOf k) + 51 * ((k 0).val / 51) : ℕ) : Int) := by
  have e : idx_main_v58 k = ix2 (rowOf k) (atomOf k) := funext fun d => match d with | ⟨0, _⟩ => rfl | ⟨1, _⟩ => rfl
  have eo : ∀ i : S1048576x51.Idx, val_main_v56 (F := Ideal) i = IntOp.muli (BitVec.ofNat 32 (i 0).val) 51#32 := by
    intro i
    rw [val_main_v56_apply, val_main_v43_apply, val_main_v42_apply, val_main_v40_apply, val_main_v41_apply, val_main_c_7_apply]
  rw [val_main_v58_apply, e, val_main_v57_apply, eo, hi_at, pos_at]
  exact Cert.RowSums.word_toInt _ (binHi_le x0 x2 x3 _ _) _ (rowOf k).isLt

/-- The wrap of negative indices changes nothing: the scatter indices are the flat indices. -/
theorem idxLo_at (k : S53477376.Idx) :
    val_main_v54 (F := Ideal) x0 x2 x3 (ix2 (⟨(k 0).val, (k 0).isLt⟩ : Fin 53477376) (0 : Fin 1)) = val_main_v47 (F := Ideal) x0 x2 x3 k := by
  have e : idx_main_v54 (ix2 (⟨(k 0).val, (k 0).isLt⟩ : Fin 53477376) (0 : Fin 1)) = k :=
    funext fun d => match d with | ⟨0, _⟩ => rfl
  rw [val_main_v54_apply, e, val_main_v53_apply, val_main_v50_apply, val_main_v52_apply, val_main_v49_apply, val_main_c_9_apply]
  exact Cert.LibFlatScatter.wrap_of_nonneg _ _ (by rw [wordLo_toInt]; exact Int.natCast_nonneg _)

theorem idxHi_at (k : S53477376.Idx) :
    val_main_v65 (F := Ideal) x0 x2 x3 (ix2 (⟨(k 0).val, (k 0).isLt⟩ : Fin 53477376) (0 : Fin 1)) = val_main_v58 (F := Ideal) x0 x2 x3 k := by
  have e : idx_main_v65 (ix2 (⟨(k 0).val, (k 0).isLt⟩ : Fin 53477376) (0 : Fin 1)) = k :=
    funext fun d => match d with | ⟨0, _⟩ => rfl
  rw [val_main_v65_apply, e, val_main_v64_apply, val_main_v61_apply, val_main_v63_apply, val_main_v60_apply, val_main_c_11_apply]
  exact Cert.LibFlatScatter.wrap_of_nonneg _ _ (by rw [wordHi_toInt]; exact Int.natCast_nonneg _)

/-! ## What lands on a flat entry -/

/-- The sum of the updates a flat scatter lands on entry 51 · r + j, when its index at position k reads
    "bin of (row, atom of k) + 51 · row of k" with bins at most 50: the updates of row r's atoms whose bin is j. -/
theorem landed (idx : IVec S53477376x1 32) (upd : S53477376.Idx → EReal) (B : Fin 1048576 → Fin 51 → ℕ) (hB : ∀ r a, B r a ≤ 50)
    (hidx : ∀ k : S53477376.Idx, (idx (ix2 (⟨(k 0).val, (k 0).isLt⟩ : Fin 53477376) (0 : Fin 1))).toInt
      = ((B (rowOf k) (atomOf k) + 51 * ((k 0).val / 51) : ℕ) : Int)) (r : Fin 1048576) (j : Fin 51) :
    ∑ k ∈ Finset.univ.filter (fun k => scatter_S53477376_S53477376x1_S53477376_n_0_0_1.resultIdx? k idx = some (ix1 (flat r j))), upd k
      = ∑ a : Fin 51, if B r a = j.val then upd (ix1 (flat r a)) else 0 := by
  refine Cert.RowSums.sum_filter_flat B hB upd r j _ (fun k => ?_)
  rw [Cert.LibFlatScatter.flat_lands_iff scatter_S53477376_S53477376x1_S53477376_n_0_0_1 rfl rfl rfl rfl idx k (ix1 (flat r j)), hidx k]
  show ((B (rowOf k) (atomOf k) + 51 * ((k 0).val / 51) : ℕ) : Int) = ((r.val * 51 + j.val : ℕ) : Int) ↔ _
  exact Int.natCast_inj

/-- The flattened masses at the flat position of (row r, atom a). -/
theorem updLo_at (r : Fin 1048576) (a : Fin 51) :
    val_main_v48 (F := Ideal) x0 x1 x2 x3 (ix1 (flat r a)) = Bins.wLo (x1 (ix2 r a)) (Bins.pos (x0 (ix1 r)) (x2 (ix1 a)) (x3 (ix1 r))) := by
  have e : idx_main_v48 (ix1 (flat r a)) = ix2 r a := by
    funext d
    apply Fin.ext
    have hr := r.isLt
    have ha := a.isLt
    match d with
    | ⟨0, _⟩ => show (r.val * 51 + a.val) / 51 = r.val; omega
    | ⟨1, _⟩ => show (r.val * 51 + a.val) % 51 = a.val; omega
  rw [val_main_v48_apply, e, wlo_at, pos_at]

theorem updHi_at (r : Fin 1048576) (a : Fin 51) :
    val_main_v59 (F := Ideal) x0 x1 x2 x3 (ix1 (flat r a)) = Bins.wHi (x1 (ix2 r a)) (Bins.pos (x0 (ix1 r)) (x2 (ix1 a)) (x3 (ix1 r))) := by
  have e : idx_main_v59 (ix1 (flat r a)) = ix2 r a := by
    funext d
    apply Fin.ext
    have hr := r.isLt
    have ha := a.isLt
    match d with
    | ⟨0, _⟩ => show (r.val * 51 + a.val) / 51 = r.val; omega
    | ⟨1, _⟩ => show (r.val * 51 + a.val) % 51 = a.val; omega
  rw [val_main_v59_apply, e, whi_at, pos_at]

/-! ## The result -/

/-- Entry (row r, bin j) of the reference's result is the projected distribution there. -/
theorem ref_at (r : Fin 1048576) (j : Fin 51) :
    val_main_v67 (F := Ideal) x0 x1 x2 x3 (ix2 r j) = Target.projected x0 x1 x2 x3 (ix2 r j) := by
  have e : idx_main_v67 (ix2 r j) = ix1 (flat r j) := funext fun d => match d with | ⟨0, _⟩ => rfl
  have hj : j.val < 2 ^ 32 := by have := j.isLt; omega
  rw [val_main_v67_apply, e]
  show Host.scatterAdd (F := Ideal) scatter_S53477376_S53477376x1_S53477376_n_0_0_1
      (Host.scatterAdd (F := Ideal) scatter_S53477376_S53477376x1_S53477376_n_0_0_1 (val_main_v44 (F := Ideal))
        (val_main_v54 (F := Ideal) x0 x2 x3) (val_main_v48 (F := Ideal) x0 x1 x2 x3))
      (val_main_v65 (F := Ideal) x0 x2 x3) (val_main_v59 (F := Ideal) x0 x1 x2 x3) (ix1 (flat r j)) = _
  rw [Cert.LibFlatScatter.scatterAdd_apply, Cert.LibFlatScatter.scatterAdd_apply,
    landed (val_main_v54 (F := Ideal) x0 x2 x3) (val_main_v48 (F := Ideal) x0 x1 x2 x3) (binLo x0 x2 x3) (binLo_le x0 x2 x3)
      (fun k => by rw [idxLo_at, wordLo_toInt]) r j,
    landed (val_main_v65 (F := Ideal) x0 x2 x3) (val_main_v59 (F := Ideal) x0 x1 x2 x3) (binHi x0 x2 x3) (binHi_le x0 x2 x3)
      (fun k => by rw [idxHi_at, wordHi_toInt]) r j,
    val_main_v44_apply, val_main_cst_8_apply, Target.projected_at]
  show Ideal.ofBits .f32 0x00000000#32 + _ + _ = _
  rw [Cert.Consts.ofBits_zero, zero_add, ← Finset.sum_add_distrib]
  refine Finset.sum_congr rfl (fun a _ => ?_)
  rw [updLo_at, updHi_at]
  unfold Bins.share
  rw [Cert.RowSums.select_eq_ite _ _ hj, Cert.RowSums.select_eq_ite _ _ hj]

/-- The reference's result array is the projected distribution of its arguments. -/
theorem ref_eq : val_main_v67 (F := Ideal) x0 x1 x2 x3 = Target.projected x0 x1 x2 x3 := by
  funext i
  obtain ⟨r, j, rfl⟩ : ∃ (r : Fin 1048576) (j : Fin 51), i = ix2 r j := ⟨i 0, i 1, eq_ix2 i⟩
  exact ref_at x0 x1 x2 x3 r j

end Cert.ReferenceIdeal.RefValue

end
-- ==== Proof.lean ====
/-
  The certificate of a categorical (51-atom) projection kernel against its jnp reference, over the extended reals.

  Both programs take, per row, a reward, a mask word and 51 atom masses, and a shared row of 51 atom values. Each atom is
  moved to reward + (γ · value) · mask, clipped to [-10, 10], and placed at the position (clipped + 10) / D among the 51
  bins, D the bin width; its mass is split between the two neighbouring bins in proportion to the distances (the lower
  bin one below an exact integer position, the upper bin one above it when the two would coincide below 50). The result
  row is the histogram of the split masses.
  The kernel multiplies by a constant where the reference divides by D: the constant is named 2^25 / 13421773 = 1 / D
  (`preserves` is that one statement), so at the ideal values both positions are the same extended real.
  The kernel builds the histogram by comparing every atom's two bins with every bin j and summing along the atoms
  (one stored column per j); the reference scatters the masses into a flat array at "bin + 51 · row". Because a position
  lies in [0, 20 / D] and 20 / D < 50 whatever the inputs are, both bins are among 0 … 50, so a scattered mass stays in
  its own row and the two histograms are one function of the arguments (`Target.projected`): `KernelArray` shows it of
  the kernel's result array, `RefValue` of the reference's. No finiteness of the inputs is used: the clip absorbs
  infinities, and sums of extended reals reorder freely.
-/
import proofs.«155263_j38955353375480_1_alg».proof.Defs
import proofs.«155263_j38955353375480_1_alg».proof.Proof.Gen.Kernel
import proofs.«155263_j38955353375480_1_alg».proof.Proof.Gen.Kernel.Skeleton
import proofs.«155263_j38955353375480_1_alg».proof.Proof.Gen.Kernel.Launch
import proofs.«155263_j38955353375480_1_alg».proof.Proof.Gen.Kernel.Points
import proofs.«155263_j38955353375480_1_alg».proof.Proof.Gen.Kernel.Frame
import proofs.«155263_j38955353375480_1_alg».proof.Proof.Gen.KernelIdeal
import proofs.«155263_j38955353375480_1_alg».proof.Proof.Gen.KernelIdeal.Skeleton
import proofs.«155263_j38955353375480_1_alg».proof.Proof.Gen.KernelIdeal.Launch
import proofs.«155263_j38955353375480_1_alg».proof.Proof.Gen.KernelIdeal.Points
import proofs.«155263_j38955353375480_1_alg».proof.Proof.Gen.KernelIdeal.Frame
import proofs.«155263_j38955353375480_1_alg».proof.Proof.Gen.ReferenceIdeal
import proofs.«155263_j38955353375480_1_alg».proof.Proof.Gen.Pre_finite_inputs
import proofs.«155263_j38955353375480_1_alg».proof.Proof.Gen.ReferenceIdeal.Run
import proofs.«155263_j38955353375480_1_alg».proof.Proof.Gen.ReferenceIdeal.Read
import proofs.«155263_j38955353375480_1_alg».proof.Proof.KernelArray
import proofs.«155263_j38955353375480_1_alg».proof.Proof.RefValue
import Idealize.ShloMosaic.Adequacy
import Idealize.ShloMosaic.Init

noncomputable section

namespace Cert.Proof

open Idealize.ShloMosaic Idealize.ShloMosaic.TcCoe Idealize.SL.Sem

/-- The three programs run, nothing faulting, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's constant 2.5 is named the reciprocal 2^25 / 13421773 of the bin width. -/
theorem preserves : Cert.preserves_Kernel_KernelIdeal :=
  IdealRules.named_const.statement Cert.KernelIdeal.κ "inv_delta" .f32 0x40200000#32 ((33554432 / 13421773 : ℝ) : EReal) rfl

/-- From arguments that agree, both programs end with the projected distribution of the arguments. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
